-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_0)) (v2 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_0) = v1 c
          ∧ r.2.mem ((c.tc : Thread Cert.KernelIdeal.nD Cert.KernelIdeal.τ).loc Cert.KernelIdeal.main_v12_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part5 {F : FTy → Type} [FloatOps F] (main_arg18 : FVec F S1024 .f32) (main_v83 : IVec S_ 1) (main_v84 : FVec F S1024x1024 .f32) (main_cst_32 : FVec F S_ .f32) : IVec S_ 1 :=
  let main_v85 : FVec F S1024x1024 .f32 := broadcastInDim S1024x1024 ![] bcast_S_S1024x1024 main_cst_32
  let main_v86 : IVec S1024x1024 1 := cmpf .olt main_v84 main_v85
  let main_c_33 : IVec S_ 1 := constantI S_ 1 1#1
  let main_v87 : IVec S_ 1 := (fun x v => Host.reduce IntOp.andi x v reducesTo_S1024x1024_S_d0_1 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  main_v93

def fn_part4 {F : FTy → Type} [FloatOps F] (main_arg14 : FVec F S1024 .f32) (main_arg15 : FVec F S1024x1024 .f32) (main_arg16 : FVec F S1024 .f32) (main_arg17 : FVec F S1024x1024 .f32) (main_arg18 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024x1024 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_arg17 main_arg18 main_v63 main_v67

def fn_part2 {F : FTy → Type} [FloatOps F] (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S4096x1024 .f32) (main_arg1 : FVec F S4096x1024 .f32) (main_arg2 : FVec F S4096x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S4096 : Shape := ⟨1, ![4096]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 33
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S4096x1024, .f32⟩
  | .hbm, ⟨20, _⟩ => ⟨S4096x1024, .f32⟩
  | .hbm, ⟨21, _⟩ => ⟨S1024, .f32⟩
  | .hbm, ⟨22, _⟩ => ⟨S1024, .f32⟩
  | .hbm, ⟨23, _⟩ => ⟨S1024, .f32⟩
  | .hbm, ⟨24, _⟩ => ⟨S1024, .f32⟩
  | .hbm, ⟨25, _⟩ => ⟨S4096, .f32⟩
  | .hbm, ⟨26, _⟩ => ⟨S1x4096, .f32⟩
  | .hbm, ⟨27, _⟩ => ⟨S4096x1024, .bf16⟩
  | .hbm, ⟨28, _⟩ => ⟨S4096x1024, .bf16⟩
  | .hbm, ⟨29, _⟩ => ⟨S4096x1024, .bf16⟩
  | .hbm, ⟨30, _⟩ => ⟨S4096x1024, .bf16⟩
  | .hbm, ⟨31, _⟩ => ⟨S4096x1024, .f32⟩
  | .hbm, ⟨32, _⟩ => ⟨S4096x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S4096x1024, .bf16⟩
  | .local _ .vmem, ⟨7, _⟩ => ⟨S4096x1024, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12_0 : Ref sig .tc := ⟨.hbm, 31, rfl⟩
abbrev main_v12_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S1024x1024_S1024x1024_S1024x1024_S1024x1024_S4096x1024_d0 : Shape.Concatenates [S1024x1024, S1024x1024, S1024x1024, S1024x1024] S4096x1024 0
  concatenates_S1024_S1024_S1024_S1024_S4096_d0 : Shape.Concatenates [S1024, S1024, S1024, S1024] S4096 0
  shapeCasts_S4096_S1x4096 : S4096.ShapeCasts S1x4096
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S4096x1024_S256x4096_1_1_0_0_n_n_wf : DotDims.WF S256x1024 S4096x1024 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .bf16 = 32 ∨ (Rect.block (s := S4096x1024) S256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .bf16 = 32 ∨ (Rect.block (s := S4096x1024) S256x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x1024.size a
  hwx0_6 : ∀ i : grid0.Coords, EltTy.bits .f32 = 32 ∨ (Rect.block (s := S4096x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S4096x1024.size a
  hwx0_7 : ∀ i : grid0.Coords, EltTy.bits .f32 = 32 ∨ (Rect.block (s := S4096x1024) S256x1024.size (cc0_transform_7 i) (hinb0_7 i)).WholeWords (EltTy.packing .f32)

variable [Facts₀]

def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf

abbrev win0_0 : Pipeline.Window sig grid0 :=
  Pipeline.Window.ofSpec (Memref.whole main_v8) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v12_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S4096 : Shape := ⟨1, ![4096]⟩
abbrev S1024x4096 : Shape := ⟨2, ![1024, 4096]⟩
abbrev S4096x4096 : Shape := ⟨2, ![4096, 4096]⟩
abbrev S1x4096 : Shape := ⟨2, ![1, 4096]⟩
abbrev S_ : Shape := ⟨0, ![]⟩

abbrev nBuf : Space → Nat
  | .hbm => 68
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S4096x1024, .f32⟩
  | .hbm, ⟨20, _⟩ => ⟨S4096x1024, .f32⟩
  | .hbm, ⟨21, _⟩ => ⟨S1024, .f32⟩
  | .hbm, ⟨22, _⟩ => ⟨S1024, .f32⟩
  | .hbm, ⟨23, _⟩ => ⟨S1024, .f32⟩
  | .hbm, ⟨24, _⟩ => ⟨S1024, .f32⟩
  | .hbm, ⟨25, _⟩ => ⟨S4096, .f32⟩
  | .hbm, ⟨26, _⟩ => ⟨S1024x4096, .f32⟩
  | .hbm, ⟨27, _⟩ => ⟨S4096x4096, .f32⟩
  | .hbm, ⟨28, _⟩ => ⟨S1024x4096, .f32⟩
  | .hbm, ⟨29, _⟩ => ⟨S4096x4096, .f32⟩
  | .hbm, ⟨30, _⟩ => ⟨S4096x4096, .f32⟩
  | .hbm, ⟨31, _⟩ => ⟨S1x4096, .f32⟩
  | .hbm, ⟨32, _⟩ => ⟨S4096x4096, .f32⟩
  | .hbm, ⟨33, _⟩ => ⟨S4096x4096, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst : Ref sig .tc := ⟨.hbm, 40, rfl⟩
abbrev main_v21 : Ref sig .tc := ⟨.hbm, 41, rfl⟩
abbrev main_v22 : Ref sig .tc := ⟨.hbm, 42, rfl⟩
abbrev main_cst_0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_1 : Ref sig .tc := ⟨.hbm, 48, rfl⟩
abbrev main_v27 : Ref sig .tc := ⟨.hbm, 49, rfl⟩
abbrev main_v28 : Ref sig .tc := ⟨.hbm, 50, rfl⟩
abbrev main_cst_2 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_3 : Ref sig .tc := ⟨.hbm, 57, rfl⟩
abbrev main_v34 : Ref sig .tc := ⟨.hbm, 58, rfl⟩
abbrev main_v35 : Ref sig .tc := ⟨.hbm, 59, rfl⟩
abbrev main_cst_4 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩

abbrev nD : Nat := 1
abbrev τ : Topo := Topo.v7x

variable {F : FTy → Type} [FloatOps F]

class Facts₀ : Prop where
  concatenates_S1024x1024_S1024x1024_S1024x1024_S1024x1024_S4096x1024_d0 : Shape.Concatenates [S1024x1024, S1024x1024, S1024x1024, S1024x1024] S4096x1024 0
  concatenates_S1024_S1024_S1024_S1024_S4096_d0 : Shape.Concatenates [S1024, S1024, S1024, S1024] S4096 0
  transposes_S4096x1024_S1024x4096_1_0 : S4096x1024.Transposes [1, 0] S1024x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.KEntry.lean ====
/-
  The kernel's program up to its one launch, and what the launch finds.

  The program is twelve host operations and then the launch. The host operations stack the four input-side and the four
  hidden-side weight matrices into two [4096, 1024] matrices, add the bias vectors pairwise and lay the four sums end to
  end as one row [1, 4096], and narrow the activations and the stacked weights to the 16-bit format. None of them writes
  an argument array, so the launch finds every argument as the program was given it.

  For a window of the launch and a grid point, the window's block there is read off the window's array as the launch
  finds it; an input window's staging buffer holds that block at every point, whether or not the pipeline fetched it
  there (a window whose block index does not move is fetched once and found in place afterwards).
-/
import proofs.«127617_j77988016160946_1_alg».proof.Proof.Gen.Kernel.Launch
import proofs.«127617_j77988016160946_1_alg».proof.Proof.Gen.Kernel.Skeleton
import proofs.«127617_j77988016160946_1_alg».proof.Proof.Gen.Kernel.Points
import Idealize.ShloMosaic.Lib.Pipeline.FrameBody

set_option maxRecDepth 16384

noncomputable section

namespace Cert.Kernel.Region

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The program up to the launch -/

/-- What core `c`'s buffers hold when the launch begins: the given memory after the twelve host operations. -/
abbrev V (c : Dev nD) (b : Ref sig .tc) : Buf (Elt F) ((c : Thread nD τ).loc b) :=
  StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- The program is its host operations and then the launch, which begins at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! Each host operation writes a buffer of its own, never an argument: the launch finds every argument as given. -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds its block at every point, for any proof data whose arrays are `V`'s and whose
    body leaves the block in place. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## Every argument ends as given -/

/-- From a run of the program that ends with the launch's arrays where the proof data put them and every other
    buffer as the launch found it: the arguments end as given. The cell state is staged by window 2 and never written
    back; no window stages any other argument. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) h

end Cert.Kernel.Region

end
-- ==== Proof.KBody.lean ====
/-
  What the kernel's body does to its staging buffers at one grid point.

  The body loads the six input blocks whole (the two activation blocks, the cell-state block, the two stacked weight
  matrices and the bias row), computes the four gates, and stores the new hidden state whole into the seventh buffer and
  the new cell state whole into the eighth. Each output buffer therefore ends holding ONE piece that covers it: the
  body's value, as a function of the six loaded blocks. The inputs' buffers are left as found.
-/
import proofs.«127617_j77988016160946_1_alg».proof.Proof.KEntry
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each buffer whole -/

abbrev rA : Rect S256x1024 := Rect.unit (s := S256x1024) ![0, 0] S256x1024.size inb_S256x1024_S256x1024_0_0
abbrev rW : Rect S4096x1024 := Rect.unit (s := S4096x1024) ![0, 0] S4096x1024.size inb_S4096x1024_S4096x1024_0_0
abbrev rB : Rect S1x4096 := Rect.unit (s := S1x4096) ![0, 0] S1x4096.size inb_S1x4096_S1x4096_0_0

/-! ## What the body leaves in the two output buffers -/

/-- The new hidden state's buffer after the body: one whole piece, the output gate times the hyperbolic tangent of the
    new cell state, computed from the six loaded blocks. -/
def out0_6 (x0 : Vec F S256x1024 .bf16) (x1 : Vec F S256x1024 .bf16) (x2 : Vec F S256x1024 .f32) (x3 : Vec F S4096x1024 .bf16) (x4 : Vec F S4096x1024 .bf16) (x5 : Vec F S1x4096 .f32) : Vec F S256x1024 .f32 :=
  View.canon [⟨rA, k0_pay3 (View.ld x0 rA) (View.ld x1 rA) (View.ld x2 rA) (View.ld x3 rW) (View.ld x4 rW) (View.ld x5 rB)⟩]

/-- The new cell state's buffer after the body: one whole piece, forget gate times old cell state plus input gate times
    candidate. -/
def out0_7 (x0 : Vec F S256x1024 .bf16) (x1 : Vec F S256x1024 .bf16) (x2 : Vec F S256x1024 .f32) (x3 : Vec F S4096x1024 .bf16) (x4 : Vec F S4096x1024 .bf16) (x5 : Vec F S1x4096 .f32) : Vec F S256x1024 .f32 :=
  View.canon [⟨rA, k0_pay2 (View.ld x0 rA) (View.ld x1 rA) (View.ld x2 rA) (View.ld x3 rW) (View.ld x4 rW) (View.ld x5 rB)⟩]

/-- One whole piece covers the buffer. -/
theorem cover_whole (p0 : Vec F S256x1024 .f32) (y : S256x1024.Idx) :
    ∃ pc ∈ ([⟨rA, p0⟩] : List (View.Piece (Elt F) S256x1024 .f32)), y ∈ pc.1.set :=
  View.cover_of_tiled [⟨rA, p0⟩] S256x1024.size (by rfl) y

/-! ## The body's triple -/

set_option maxHeartbeats 1000000 in
/-- On whole staging buffers, the inputs' at contents `x0 … x5` and the outputs' at anything, the body runs to its
    continuation with the inputs' buffers unchanged and the outputs' at `out0_6` and `out0_7` of the inputs. -/
theorem sound_kernel (c : Dev nD) (E : Set ℕ) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S4096x1024 .bf16) (harg4 : arg4.IsWhole) (arg5 : Memref sig .tc .vmem S4096x1024 .bf16) (harg5 : arg5.IsWhole) (arg6 : Memref sig .tc .vmem S1x4096 .f32) (harg6 : arg6.IsWhole) (arg7 : Memref sig .tc .vmem S256x1024 .f32) (harg7 : arg7.IsWhole) (arg8 : Memref sig .tc .vmem S256x1024 .f32) (harg8 : arg8.IsWhole)
    (x0 : Vec F S256x1024 .bf16) (x1 : Vec F S256x1024 .bf16) (x2 : Vec F S256x1024 .f32) (x3 : Vec F S4096x1024 .bf16) (x4 : Vec F S4096x1024 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_whole _)
  iexists _; isplitr
  swap; · iexact H7
  ipureintro
  exact View.read_writes_eq_canon _ _ _ (cover_whole _)

end Cert.Kernel.Region

end
-- ==== Proof.KRun.lean ====
/-
  The kernel's launch, run point by point, and the program's run.

  The proof data of the launch: its arrays as the launch finds them; after the body at point `t` each input's staging
  buffer still at the window's block and the two outputs' buffers at the body's values of the six input blocks there.
  The body meets its obligation at every point because its inputs' buffers hold their blocks. Every fair execution of
  the program then terminates with the two result arrays assembled from what the points wrote back and every other
  buffer as the launch found it; in particular the arguments end as given.
-/
import proofs.«127617_j77988016160946_1_alg».proof.Proof.KBody

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch's proof data -/

/-- On core `c`: the arrays as the launch finds them; after the body at point `t` each input's buffer at its block and
    each output's at the body's value of the six input blocks; the scoped rest and the generator register untouched;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
    | ⟨7, _⟩ => out0_7 (iblk m c 0 t) (iblk m c 1 t) (iblk m c 2 t) (iblk m c 3 t) (iblk m c 4 t) (iblk m c 5 t)
  Φ _ := Pipeline.ΦA spec0 c
  q _ := fullShare
  owed _ := 0

/-- The proof data's arrays are the launch's. -/
theorem A_eq (c : Dev nD) (w : Fin cfg0.W) : (dats m 0 c).A w = V m c (Pipeline.arrRef spec0 w) := by
  dsimp only [dats]

/-! What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) := by dsimp only [dats]

/-! Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body's obligation at a point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run, and the arguments kept -/

set_option backward.isDefEq.respectTransparency.types false in
/-- For any values, from any memory with zero counters: every weakly fair execution of the program terminates, and in
    every final state each array of the launch is what the proof data assemble and every other unscoped buffer is as
    the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, faults nowhere, and leaves its nineteen arguments as given. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.Kernel.Region

end
-- ==== Proof.IEntry.lean ====
/-
  The idealized kernel's program up to its one launch, and what the launch finds.

  The program is twelve host operations and then the launch. The host operations stack the four input-side and the four
  hidden-side weight matrices into two [4096, 1024] matrices, add the bias vectors pairwise and lay the four sums end to
  end as one row [1, 4096], and narrow the activations and the stacked weights to the 16-bit format. None of them writes
  an argument array, so the launch finds every argument as the program was given it.

  For a window of the launch and a grid point, the window's block there is read off the window's array as the launch
  finds it; an input window's staging buffer holds that block at every point, whether or not the pipeline fetched it
  there (a window whose block index does not move is fetched once and found in place afterwards).
-/
import proofs.«127617_j77988016160946_1_alg».proof.Proof.Gen.KernelIdeal.Launch
import proofs.«127617_j77988016160946_1_alg».proof.Proof.Gen.KernelIdeal.Skeleton
import proofs.«127617_j77988016160946_1_alg».proof.Proof.Gen.KernelIdeal.Points
import Idealize.ShloMosaic.Lib.Pipeline.FrameBody

set_option maxRecDepth 16384

noncomputable section

namespace Cert.KernelIdeal.Region

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The program up to the launch -/

/-- What core `c`'s buffers hold when the launch begins: the given memory after the twelve host operations. -/
abbrev V (c : Dev nD) (b : Ref sig .tc) : Buf (Elt F) ((c : Thread nD τ).loc b) :=
  StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- The program is its host operations and then the launch, which begins at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! Each host operation writes a buffer of its own, never an argument: the launch finds every argument as given. -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds its block at every point, for any proof data whose arrays are `V`'s and whose
    body leaves the block in place. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## Every argument ends as given -/

/-- From a run of the program that ends with the launch's arrays where the proof data put them and every other
    buffer as the launch found it: the arguments end as given. The cell state is staged by window 2 and never written
    back; no window stages any other argument. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) h

end Cert.KernelIdeal.Region

end
-- ==== Proof.IBody.lean ====
/-
  What the idealized kernel's body does to its staging buffers at one grid point.

  The body loads the six input blocks whole (the two activation blocks, the cell-state block, the two stacked weight
  matrices and the bias row), computes the four gates, and stores the new hidden state whole into the seventh buffer and
  the new cell state whole into the eighth. Each output buffer therefore ends holding ONE piece that covers it: the
  body's value, as a function of the six loaded blocks. The inputs' buffers are left as found.
-/
import proofs.«127617_j77988016160946_1_alg».proof.Proof.IEntry
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each buffer whole -/

abbrev rA : Rect S256x1024 := Rect.unit (s := S256x1024) ![0, 0] S256x1024.size inb_S256x1024_S256x1024_0_0
abbrev rW : Rect S4096x1024 := Rect.unit (s := S4096x1024) ![0, 0] S4096x1024.size inb_S4096x1024_S4096x1024_0_0
abbrev rB : Rect S1x4096 := Rect.unit (s := S1x4096) ![0, 0] S1x4096.size inb_S1x4096_S1x4096_0_0

/-! ## What the body leaves in the two output buffers -/

/-- The new hidden state's buffer after the body: one whole piece, the output gate times the hyperbolic tangent of the
    new cell state, computed from the six loaded blocks. -/
def out0_6 (x0 : Vec F S256x1024 .bf16) (x1 : Vec F S256x1024 .bf16) (x2 : Vec F S256x1024 .f32) (x3 : Vec F S4096x1024 .bf16) (x4 : Vec F S4096x1024 .bf16) (x5 : Vec F S1x4096 .f32) : Vec F S256x1024 .f32 :=
  View.canon [⟨rA, k0_pay3 (View.ld x0 rA) (View.ld x1 rA) (View.ld x2 rA) (View.ld x3 rW) (View.ld x4 rW) (View.ld x5 rB)⟩]

/-- The new cell state's buffer after the body: one whole piece, forget gate times old cell state plus input gate times
    candidate. -/
def out0_7 (x0 : Vec F S256x1024 .bf16) (x1 : Vec F S256x1024 .bf16) (x2 : Vec F S256x1024 .f32) (x3 : Vec F S4096x1024 .bf16) (x4 : Vec F S4096x1024 .bf16) (x5 : Vec F S1x4096 .f32) : Vec F S256x1024 .f32 :=
  View.canon [⟨rA, k0_pay2 (View.ld x0 rA) (View.ld x1 rA) (View.ld x2 rA) (View.ld x3 rW) (View.ld x4 rW) (View.ld x5 rB)⟩]

/-- One whole piece covers the buffer. -/
theorem cover_whole (p0 : Vec F S256x1024 .f32) (y : S256x1024.Idx) :
    ∃ pc ∈ ([⟨rA, p0⟩] : List (View.Piece (Elt F) S256x1024 .f32)), y ∈ pc.1.set :=
  View.cover_of_tiled [⟨rA, p0⟩] S256x1024.size (by rfl) y

/-! ## The body's triple -/

set_option maxHeartbeats 1000000 in
/-- On whole staging buffers, the inputs' at contents `x0 … x5` and the outputs' at anything, the body runs to its
    continuation with the inputs' buffers unchanged and the outputs' at `out0_6` and `out0_7` of the inputs. -/
theorem sound_kernel (c : Dev nD) (E : Set ℕ) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S4096x1024 .bf16) (harg4 : arg4.IsWhole) (arg5 : Memref sig .tc .vmem S4096x1024 .bf16) (harg5 : arg5.IsWhole) (arg6 : Memref sig .tc .vmem S1x4096 .f32) (harg6 : arg6.IsWhole) (arg7 : Memref sig .tc .vmem S256x1024 .f32) (harg7 : arg7.IsWhole) (arg8 : Memref sig .tc .vmem S256x1024 .f32) (harg8 : arg8.IsWhole)
    (x0 : Vec F S256x1024 .bf16) (x1 : Vec F S256x1024 .bf16) (x2 : Vec F S256x1024 .f32) (x3 : Vec F S4096x1024 .bf16) (x4 : Vec F S4096x1024 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_whole _)
  iexists _; isplitr
  swap; · iexact H7
  ipureintro
  exact View.read_writes_eq_canon _ _ _ (cover_whole _)

end Cert.KernelIdeal.Region

end
-- ==== Proof.IRun.lean ====
/-
  The idealized kernel's launch, run point by point, and the program's run.

  The proof data of the launch: its arrays as the launch finds them; after the body at point `t` each input's staging
  buffer still at the window's block and the two outputs' buffers at the body's values of the six input blocks there.
  The body meets its obligation at every point because its inputs' buffers hold their blocks. Every fair execution of
  the program then terminates with the two result arrays assembled from what the points wrote back and every other
  buffer as the launch found it; in particular the arguments end as given.
-/
import proofs.«127617_j77988016160946_1_alg».proof.Proof.IBody

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch's proof data -/

/-- On core `c`: the arrays as the launch finds them; after the body at point `t` each input's buffer at its block and
    each output's at the body's value of the six input blocks; the scoped rest and the generator register untouched;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
    | ⟨7, _⟩ => out0_7 (iblk m c 0 t) (iblk m c 1 t) (iblk m c 2 t) (iblk m c 3 t) (iblk m c 4 t) (iblk m c 5 t)
  Φ _ := Pipeline.ΦA spec0 c
  q _ := fullShare
  owed _ := 0

/-- The proof data's arrays are the launch's. -/
theorem A_eq (c : Dev nD) (w : Fin cfg0.W) : (dats m 0 c).A w = V m c (Pipeline.arrRef spec0 w) := by
  dsimp only [dats]

/-! What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) := by dsimp only [dats]

/-! Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body's obligation at a point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run, and the arguments kept -/

set_option backward.isDefEq.respectTransparency.types false in
/-- For any values, from any memory with zero counters: every weakly fair execution of the program terminates, and in
    every final state each array of the launch is what the proof data assemble and every other unscoped buffer is as
    the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, faults nowhere, and leaves its nineteen arguments as given. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.KernelIdeal.Region

end
-- ==== Proof.Spec.lean ====
/-
  One step of a long short-term memory cell, entry by entry, on the extended reals.

  The batch has 4096 rows; the input and the hidden state have 1024 features each. The four gates' weight matrices are
  stacked into one [4096, 1024] matrix for the input and one for the hidden state (gate g occupies rows 1024·g to
  1024·g + 1023: input gate, forget gate, candidate, output gate), and the four bias sums are laid end to end as one
  vector of 4096 entries. The stacked pre-activation at batch row p and stacked column q is

      pre p q = (Σ_k x(p,k) · Wi(q,k)) + (Σ_k h(p,k) · Wh(q,k)) + b(q),

  the new cell state is   c'(p,j) = σ(pre p (1024 + j)) · c(p,j) + σ(pre p j) · tanh(pre p (2048 + j)),
  and the new hidden state  h'(p,j) = σ(pre p (3072 + j)) · tanh(c'(p,j)),
  with σ the logistic function. Nothing here needs the inputs finite: both programs compute these same expressions, sum
  for sum and product for product, so no law of arithmetic is used beyond reading them off.
-/
import Idealize.ShloMosaic.Lib.ValueIdx
import Idealize.ShloMosaic.PureOps.Ideal

noncomputable section

open scoped BigOperators

namespace Cert.Lstm

open Idealize.ShloMosaic Idealize.ShloMosaic.ValueIdx

/-- A [4096, 1024] array of extended reals: the activations, the cell state, a stacked weight matrix. -/
abbrev Mat : Type := (⟨2, ![4096, 1024]⟩ : Shape).Idx → EReal
/-- A vector of 4096 extended reals: the stacked bias. -/
abbrev Row : Type := (⟨1, ![4096]⟩ : Shape).Idx → EReal

/-- Feature `j`'s column among the 4096 stacked columns, for the input gate, -/
abbrev colI (j : Fin 1024) : Fin 4096 := ⟨j.val, by omega⟩
/-- the forget gate, -/
abbrev colF (j : Fin 1024) : Fin 4096 := ⟨1024 + j.val, by omega⟩
/-- the candidate, -/
abbrev colG (j : Fin 1024) : Fin 4096 := ⟨2048 + j.val, by omega⟩
/-- and the output gate. -/
abbrev colO (j : Fin 1024) : Fin 4096 := ⟨3072 + j.val, by omega⟩

/-- The stacked pre-activation at batch row `p` and stacked column `q`. -/
def pre (x h Wi Wh : Mat) (b : Row) (p q : Fin 4096) : EReal :=
  (∑ k : Fin 1024, x (ix2 p k) * Wi (ix2 q k)) + (∑ k : Fin 1024, h (ix2 p k) * Wh (ix2 q k)) + b (ix1 q)

/-- The new cell state at batch row `p`, feature `j`. -/
def cellAt (x h c Wi Wh : Mat) (b : Row) (p : Fin 4096) (j : Fin 1024) : EReal :=
  Ideal.logistic (pre x h Wi Wh b p (colF j)) * c (ix2 p j)
    + Ideal.logistic (pre x h Wi Wh b p (colI j)) * Ideal.tanh (pre x h Wi Wh b p (colG j))

/-- The new hidden state at batch row `p`, feature `j`. -/
def hiddenAt (x h c Wi Wh : Mat) (b : Row) (p : Fin 4096) (j : Fin 1024) : EReal :=
  Ideal.logistic (pre x h Wi Wh b p (colO j)) * Ideal.tanh (cellAt x h c Wi Wh b p j)

/-- The new cell state as an array. -/
def cellNew (x h c Wi Wh : Mat) (b : Row) : Mat := fun i => cellAt x h c Wi Wh b (i 0) (i 1)

/-- The new hidden state as an array. -/
def hiddenNew (x h c Wi Wh : Mat) (b : Row) : Mat := fun i => hiddenAt x h c Wi Wh b (i 0) (i 1)

theorem cellNew_apply (x h c Wi Wh : Mat) (b : Row) (p : Fin 4096) (j : Fin 1024) :
    cellNew x h c Wi Wh b (ix2 p j) = cellAt x h c Wi Wh b p j := rfl

theorem hiddenNew_apply (x h c Wi Wh : Mat) (b : Row) (p : Fin 4096) (j : Fin 1024) :
    hiddenNew x h c Wi Wh b (ix2 p j) = hiddenAt x h c Wi Wh b p j := rfl

end Cert.Lstm

end
-- ==== Proof.LibRowDot.lean ====
/-
  The product of ROWS BY ROWS read at an entry on the extended reals: an [m, k] factor against an [n, k] factor, both
  contracted along their second axis (the product of A with the transpose of B, as a linear layer spells it with its
  weight stored [out, in]). Into a zero accumulator, entry (a, b) is the sum over c of A(a, c) · B(b, c).
-/
import Idealize.ShloMosaic.Lib.ValueIdx
import Idealize.ShloMosaic.PureOps.Ideal.Laws

noncomputable section

open scoped BigOperators

namespace Cert.RowDot

open Idealize.ShloMosaic Idealize.ShloMosaic.ValueIdx

/-- The dimension numbers of the product of rows by rows: both factors contracted along axis 1. -/
abbrev rowDot (m n k : Nat) (wf : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ where
  lhsContracting := [1]
  rhsContracting := [1]
  lhsNonContracting := [0]
  rhsNonContracting := [0]
  lhsBatch := []
  rhsBatch := []
  wf := wf

/-- Rows by rows, into the zero accumulator: entry (a, b) is the sum over c of A(a, c) · B(b, c). -/
theorem matmul_rowDot_apply {m n k : Nat} {φ₁ φ₂ : FTy}
    (wf : DotDims.WF ⟨2, ![m, k]⟩ ⟨2, ![n, k]⟩ ⟨2, ![m, n]⟩ [1] [1] [0] [0] [] []) (prec : Option ContractPrecision)
    (A : FVec Ideal ⟨2, ![m, k]⟩ φ₁) (B : FVec Ideal ⟨2, ![n, k]⟩ φ₂) (a : Fin m) (b : Fin n) :
    matmul (rowDot m n k wf) prec A B (constant ⟨2, ![m, n]⟩ .f32 0x00000000#32) (ix2 a b)
      = ∑ c : Fin k, A (ix2 a c) * B (ix2 b c) := by
  show FloatOps.matmul (rowDot m n k wf) prec A B (constant ⟨2, ![m, n]⟩ .f32 0x00000000#32) (ix2 a b) = _
  rw [Ideal.matmul_constant_zero_apply, ← Equiv.sum_comp (contrEquiv1 (rowDot m n k wf) k rfl rfl).symm]
  refine Finset.sum_congr rfl fun c _ => ?_
  have c2 := contrEquiv1_symm_val (rowDot m n k wf) k rfl rfl c
  have l2 : (rowDot m n k wf).lhsIdx (ix2 a b) ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (rowDot m n k wf).rhsIdx (ix2 a b) ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowDot

end
-- ==== Proof.IPay.lean ====
/-
  The idealized kernel's body, read at one entry of its block.

  At a grid point the body holds a block of 256 batch rows. From the two activation blocks v0, v2 (256 rows), the two
  stacked weight matrices v5, v7 (4096 rows, whole) and the stacked bias row v9 it forms the block's pre-activations

      preBlk r q = (Σ_k v0(r,k) · v5(q,k)) + (Σ_k v2(r,k) · v7(q,k)) + v9(0,q),

  both products contracting the second axis of both factors and starting from zero; it then cuts the four gates' column
  blocks out of them and combines them with the cell-state block v4 exactly as Spec.lean's cell step does.
-/
import proofs.«127617_j77988016160946_1_alg».proof.Proof.Gen.KernelIdeal.Skeleton
import proofs.«127617_j77988016160946_1_alg».proof.Proof.Spec
import proofs.«127617_j77988016160946_1_alg».proof.Proof.LibRowDot
import Idealize.ShloMosaic.Lib.Pipeline.Value
import Idealize.ShloMosaic.Lib.ValueIdx

noncomputable section

open scoped BigOperators

namespace Cert.KernelIdeal.Payload

open Cert.KernelIdeal Cert.KernelIdeal.Gen Cert.Lstm
open Idealize.ShloMosaic Idealize.ShloMosaic.ValueIdx

variable (v0 v2 : Vec Ideal S256x1024 .bf16) (v4 : Vec Ideal S256x1024 .f32) (v5 v7 : Vec Ideal S4096x1024 .bf16) (v9 : Vec Ideal S1x4096 .f32)

/-- The block's pre-activation at its row `r` and stacked column `q`. -/
def preBlk (r : Fin 256) (q : Fin 4096) : EReal :=
  (∑ k : Fin 1024, v0 (ix2 r k) * v5 (ix2 q k)) + (∑ k : Fin 1024, v2 (ix2 r k) * v7 (ix2 q k)) + v9 (ix2 (0 : Fin 1) q)

/-- The bias row laid over the block's 256 rows reads the row at the column. -/
theorem bias_over_rows (b : FVec Ideal S1x4096 .f32) (r : Fin 256) (q : Fin 4096) :
    broadcastTo S256x4096 b broadcasts_S1x4096_S256x4096 (ix2 r q) = b (ix2 (0 : Fin 1) q) :=
  broadcastTo_apply b broadcasts_S1x4096_S256x4096 (ix2 r q) (ix2 (0 : Fin 1) q) (fun a => match a with
    | ⟨0, _⟩ => by show 0 = if (1 : Nat) = 1 then 0 else r.val; rw [if_pos rfl]
    | ⟨1, _⟩ => by show q.val = if (4096 : Nat) = 1 then 0 else q.val; rw [if_neg (by decide)])

/-- The body's pre-activations at an entry. -/
theorem pay1_apply (r : Fin 256) (q : Fin 4096) :
    k0_pay1 (F := Ideal) v0 v2 v5 v7 v9 (ix2 r q) = preBlk v0 v2 v5 v7 v9 r q := by
  unfold k0_pay1 preBlk
  simp only [shapeCast_self]
  refine congrArg₂ (· + ·) (congrArg₂ (· + ·) ?_ ?_) ?_
  · exact Cert.RowDot.matmul_rowDot_apply (m := 256) (n := 4096) (k := 1024) Facts₀.dot_S256x1024_S4096x1024_S256x4096_1_1_0_0_n_n_wf none v0 v5 r q
  · exact Cert.RowDot.matmul_rowDot_apply (m := 256) (n := 4096) (k := 1024) Facts₀.dot_S256x1024_S4096x1024_S256x4096_1_1_0_0_n_n_wf none v2 v7 r q
  · exact bias_over_rows v9 r q

/-- A column block of width 1024 cut out of the 4096 stacked columns at offset `o`, read at an entry. -/
theorem colBlock_apply (X : FVec Ideal S256x4096 .f32) (o : Nat) (h : S256x4096.Slices ![0, o] S256x1024) (r : Fin 256) (j : Fin 1024)
    (q : Fin 4096) (hq : q.val = o + j.val) :
    extractStridedSlice S256x1024 ![0, o] X h (ix2 r j) = X (ix2 r q) :=
  extractStridedSlice_apply ![0, o] X h (ix2 r j) (ix2 r q) (fun a => match a with
    | ⟨0, _⟩ => by show r.val = 0 + r.val; omega
    | ⟨1, _⟩ => by show q.val = o + j.val; exact hq)

/-- The new cell state's block at an entry. -/
theorem pay2_apply (r : Fin 256) (j : Fin 1024) :
    k0_pay2 (F := Ideal) v0 v2 v4 v5 v7 v9 (ix2 r j)
      = Ideal.logistic (preBlk v0 v2 v5 v7 v9 r (colF j)) * v4 (ix2 r j)
        + Ideal.logistic (preBlk v0 v2 v5 v7 v9 r (colI j)) * Ideal.tanh (preBlk v0 v2 v5 v7 v9 r (colG j)) := by
  unfold k0_pay2
  show Ideal.logistic (extractStridedSlice S256x1024 ![0, 1024] (k0_pay1 (F := Ideal) v0 v2 v5 v7 v9) slices_S256x4096_o0_1024_S256x1024 (ix2 r j)) * v4 (ix2 r j)
      + Ideal.logistic (extractStridedSlice S256x1024 ![0, 0] (k0_pay1 (F := Ideal) v0 v2 v5 v7 v9) slices_S256x4096_o0_0_S256x1024 (ix2 r j))
        * Ideal.tanh (extractStridedSlice S256x1024 ![0, 2048] (k0_pay1 (F := Ideal) v0 v2 v5 v7 v9) slices_S256x4096_o0_2048_S256x1024 (ix2 r j)) = _
  rw [colBlock_apply _ 1024 _ r j (colF j) rfl, colBlock_apply _ 0 _ r j (colI j) (Nat.zero_add _).symm,
    colBlock_apply _ 2048 _ r j (colG j) rfl, pay1_apply, pay1_apply, pay1_apply]

/-- The new hidden state's block at an entry. -/
theorem pay3_apply (r : Fin 256) (j : Fin 1024) :
    k0_pay3 (F := Ideal) v0 v2 v4 v5 v7 v9 (ix2 r j)
      = Ideal.logistic (preBlk v0 v2 v5 v7 v9 r (colO j)) * Ideal.tanh (k0_pay2 (F := Ideal) v0 v2 v4 v5 v7 v9 (ix2 r j)) := by
  unfold k0_pay3
  show Ideal.logistic (extractStridedSlice S256x1024 ![0, 3072] (k0_pay1 (F := Ideal) v0 v2 v5 v7 v9) slices_S256x4096_o0_3072_S256x1024 (ix2 r j))
      * Ideal.tanh (k0_pay2 (F := Ideal) v0 v2 v4 v5 v7 v9 (ix2 r j)) = _
  rw [colBlock_apply _ 3072 _ r j (colO j) rfl, pay1_apply]

end Cert.KernelIdeal.Payload

end
-- ==== Proof.IValue.lean ====
/-
  What the idealized kernel's two result arrays hold after the run: the cell step of Spec.lean.

  The launch's grid has 16 points; point t works on batch rows 256·t to 256·t + 255. The activation and cell-state
  windows' block at t is those rows; the stacked weights and the stacked bias row are one block each, the whole array,
  at every point. The host operations before the launch leave the activations as given (narrowing the format changes
  nothing on the extended reals), stack the weights, and lay the stacked bias as a row. So what point t writes back into
  each result array is block t of the cell step's array, the 16 blocks tile the 4096 rows, and each result array ends
  holding the cell step's array whole.
-/
import proofs.«127617_j77988016160946_1_alg».proof.Proof.IRun
import proofs.«127617_j77988016160946_1_alg».proof.Proof.IPay
import Idealize.ShloMosaic.Lib.Pipeline.Value
import Idealize.ShloMosaic.Lib.StableHlo.Run

set_option maxRecDepth 16384

noncomputable section

open scoped BigOperators

namespace Cert.KernelIdeal.RegionValue

open Cert.KernelIdeal Cert.KernelIdeal.Gen Cert.KernelIdeal.Region Cert.Lstm
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The arrays the cell step is computed from -/

/-- The four input-side weight matrices stacked, as the program's first host operation stacks them. -/
def stackedWi (c : Dev nD) : Mat :=
  concatenate S4096x1024 0 [⟨S1024x1024, m ((c : Thread nD τ).loc main_arg3)⟩, ⟨S1024x1024, m ((c : Thread nD τ).loc main_arg5)⟩, ⟨S1024x1024, m ((c : Thread nD τ).loc main_arg7)⟩, ⟨S1024x1024, m ((c : Thread nD τ).loc main_arg9)⟩] concatenates_S1024x1024_S1024x1024_S1024x1024_S1024x1024_S4096x1024_d0

/-- The four hidden-side weight matrices stacked. -/
def stackedWh (c : Dev nD) : Mat :=
  concatenate S4096x1024 0 [⟨S1024x1024, m ((c : Thread nD τ).loc main_arg11)⟩, ⟨S1024x1024, m ((c : Thread nD τ).loc main_arg13)⟩, ⟨S1024x1024, m ((c : Thread nD τ).loc main_arg15)⟩, ⟨S1024x1024, m ((c : Thread nD τ).loc main_arg17)⟩] concatenates_S1024x1024_S1024x1024_S1024x1024_S1024x1024_S4096x1024_d0

/-- The four pairwise bias sums laid end to end. -/
def stackedB (c : Dev nD) : Row :=
  concatenate S4096 0 [⟨S1024, addf (F := Ideal) (φ := .f32) (m ((c : Thread nD τ).loc main_arg4)) (m ((c : Thread nD τ).loc main_arg12))⟩, ⟨S1024, addf (F := Ideal) (φ := .f32) (m ((c : Thread nD τ).loc main_arg6)) (m ((c : Thread nD τ).loc main_arg14))⟩, ⟨S1024, addf (F := Ideal) (φ := .f32) (m ((c : Thread nD τ).loc main_arg8)) (m ((c : Thread nD τ).loc main_arg16))⟩, ⟨S1024, addf (F := Ideal) (φ := .f32) (m ((c : Thread nD τ).loc main_arg10)) (m ((c : Thread nD τ).loc main_arg18))⟩] concatenates_S1024_S1024_S1024_S1024_S4096_d0

/-- The new hidden state, from the arguments as given. -/
def hiddenArr (c : Dev nD) : Mat :=
  hiddenNew (m ((c : Thread nD τ).loc main_arg0)) (m ((c : Thread nD τ).loc main_arg1)) (m ((c : Thread nD τ).loc main_arg2)) (stackedWi m c) (stackedWh m c) (stackedB m c)

/-- The new cell state, from the arguments as given. -/
def cellArr (c : Dev nD) : Mat :=
  cellNew (m ((c : Thread nD τ).loc main_arg0)) (m ((c : Thread nD τ).loc main_arg1)) (m ((c : Thread nD τ).loc main_arg2)) (stackedWi m c) (stackedWh m c) (stackedB m c)

/-! ## What the host operations leave in the launch's input arrays -/

/-- The narrowed input activations are the input activations. -/
theorem V_x (c : Dev nD) : (V m c main_v8 : S4096x1024.Idx → EReal) = m ((c : Thread nD τ).loc main_arg0) := by
  dsimp only [V, hostOps0]; after_results; rfl
/-- The narrowed hidden activations are the hidden activations. -/
theorem V_h (c : Dev nD) : (V m c main_v9 : S4096x1024.Idx → EReal) = m ((c : Thread nD τ).loc main_arg1) := by
  dsimp only [V, hostOps0]; after_results; rfl
/-- The narrowed stacked input-side weights. -/
theorem V_wi (c : Dev nD) : (V m c main_v10 : S4096x1024.Idx → EReal) = stackedWi m c := by
  dsimp only [V, hostOps0]; after_results; rfl
/-- The narrowed stacked hidden-side weights. -/
theorem V_wh (c : Dev nD) : (V m c main_v11 : S4096x1024.Idx → EReal) = stackedWh m c := by
  dsimp only [V, hostOps0]; after_results; rfl
/-- The stacked bias as a row: entry (0, q) is entry q. -/
theorem V_b (c : Dev nD) (q : Fin 4096) : (V m c main_v7 : S1x4096.Idx → EReal) (ix2 (0 : Fin 1) q) = stackedB m c (ix1 q) := by
  have e : (V m c main_v7 : S1x4096.Idx → EReal) = shapeCast S1x4096 (stackedB m c) shapeCasts_S4096_S1x4096 := by
    dsimp only [V, hostOps0]; after_results; rfl
  rw [e]
  refine (shapeCast_addUnit_apply ![4096] (stackedB m c) shapeCasts_S4096_S1x4096 (ix2 (0 : Fin 1) q)).trans ?_
  exact congrArg (stackedB m c) (funext fun a => match a with | ⟨0, _⟩ => rfl)

/-! ## The blocks, by their literal types -/

abbrev xb (c : Dev nD) (t : Fin cfg0.N) : Vec Ideal S256x1024 .bf16 := iblk m c 0 t
abbrev hb (c : Dev nD) (t : Fin cfg0.N) : Vec Ideal S256x1024 .bf16 := iblk m c 1 t
abbrev cb (c : Dev nD) (t : Fin cfg0.N) : Vec Ideal S256x1024 .f32 := iblk m c 2 t
abbrev wib (c : Dev nD) (t : Fin cfg0.N) : Vec Ideal S4096x1024 .bf16 := iblk m c 3 t
abbrev whb (c : Dev nD) (t : Fin cfg0.N) : Vec Ideal S4096x1024 .bf16 := iblk m c 4 t
abbrev bb (c : Dev nD) (t : Fin cfg0.N) : Vec Ideal S1x4096 .f32 := iblk m c 5 t

/-- The printed index maps over the grid: the row-blocked windows' block index is the point's number on the row axis
    and 0 on the column axis; the three resident windows' is 0 on both. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Batch row `r` of point `t`'s block among the 4096 rows. -/
def row (t : Fin cfg0.N) (r : Fin 256) : Fin 4096 :=
  ⟨256 * t.val + r.val, by have h : t.val < grid0.N := t.isLt; rw [N_0] at h; omega⟩

theorem xb_apply (c : Dev nD) (t : Fin cfg0.N) (r : Fin 256) (k : Fin 1024) :
    xb m c t (ix2 r k) = m ((c : Thread nD τ).loc main_arg0) (ix2 (row t r) k) := by
  show (V m c main_v8 : S4096x1024.Idx → EReal) (((cfg0.win 0).blk t).view.emb (ix2 r k)) = _
  rw [V_x]
  refine congrArg _ (funext fun a => Fin.ext ?_)
  obtain ⟨e0, e1, -⟩ := idx_facts t
  match a with
  | ⟨0, _⟩ => show win0_0.index t (0 : Fin 2) * 256 + 1 * r.val = 256 * t.val + r.val; omega
  | ⟨1, _⟩ => show win0_0.index t (1 : Fin 2) * 1024 + 1 * k.val = k.val; omega

theorem hb_apply (c : Dev nD) (t : Fin cfg0.N) (r : Fin 256) (k : Fin 1024) :
    hb m c t (ix2 r k) = m ((c : Thread nD τ).loc main_arg1) (ix2 (row t r) k) := by
  show (V m c main_v9 : S4096x1024.Idx → EReal) (((cfg0.win 1).blk t).view.emb (ix2 r k)) = _
  rw [V_h]
  refine congrArg _ (funext fun a => Fin.ext ?_)
  obtain ⟨-, -, e0, e1, -⟩ := idx_facts t
  match a with
  | ⟨0, _⟩ => show win0_1.index t (0 : Fin 2) * 256 + 1 * r.val = 256 * t.val + r.val; omega
  | ⟨1, _⟩ => show win0_1.index t (1 : Fin 2) * 1024 + 1 * k.val = k.val; omega

theorem cb_apply (c : Dev nD) (t : Fin cfg0.N) (r : Fin 256) (j : Fin 1024) :
    cb m c t (ix2 r j) = m ((c : Thread nD τ).loc main_arg2) (ix2 (row t r) j) := by
  show (V m c main_arg2 : S4096x1024.Idx → EReal) (((cfg0.win 2).blk t).view.emb (ix2 r j)) = _
  rw [V_main_arg2]
  refine congrArg _ (funext fun a => Fin.ext ?_)
  obtain ⟨-, -, -, -, e0, e1, -⟩ := idx_facts t
  match a with
  | ⟨0, _⟩ => show win0_2.index t (0 : Fin 2) * 256 + 1 * r.val = 256 * t.val + r.val; omega
  | ⟨1, _⟩ => show win0_2.index t (1 : Fin 2) * 1024 + 1 * j.val = j.val; omega

theorem wib_apply (c : Dev nD) (t : Fin cfg0.N) (q : Fin 4096) (k : Fin 1024) :
    wib m c t (ix2 q k) = stackedWi m c (ix2 q k) := by
  show (V m c main_v10 : S4096x1024.Idx → EReal) (((cfg0.win 3).blk t).view.emb (ix2 q k)) = _
  rw [V_wi]
  refine congrArg _ (funext fun a => Fin.ext ?_)
  obtain ⟨-, -, -, -, -, -, e0, e1, -⟩ := idx_facts t
  match a with
  | ⟨0, _⟩ => show win0_3.index t (0 : Fin 2) * 4096 + 1 * q.val = q.val; omega
  | ⟨1, _⟩ => show win0_3.index t (1 : Fin 2) * 1024 + 1 * k.val = k.val; omega

theorem whb_apply (c : Dev nD) (t : Fin cfg0.N) (q : Fin 4096) (k : Fin 1024) :
    whb m c t (ix2 q k) = stackedWh m c (ix2 q k) := by
  show (V m c main_v11 : S4096x1024.Idx → EReal) (((cfg0.win 4).blk t).view.emb (ix2 q k)) = _
  rw [V_wh]
  refine congrArg _ (funext fun a => Fin.ext ?_)
  obtain ⟨-, -, -, -, -, -, -, -, e0, e1, -⟩ := idx_facts t
  match a with
  | ⟨0, _⟩ => show win0_4.index t (0 : Fin 2) * 4096 + 1 * q.val = q.val; omega
  | ⟨1, _⟩ => show win0_4.index t (1 : Fin 2) * 1024 + 1 * k.val = k.val; omega

theorem bb_apply (c : Dev nD) (t : Fin cfg0.N) (q : Fin 4096) :
    bb m c t (ix2 (0 : Fin 1) q) = stackedB m c (ix1 q) := by
  refine Eq.trans ?_ (V_b m c q)
  show (V m c main_v7 : S1x4096.Idx → EReal) (((cfg0.win 5).blk t).view.emb (ix2 (0 : Fin 1) q)) = _
  refine congrArg _ (funext fun a => Fin.ext ?_)
  obtain ⟨-, -, -, -, -, -, -, -, -, -, e0, e1, -⟩ := idx_facts t
  match a with
  | ⟨0, _⟩ => show win0_5.index t (0 : Fin 2) * 1 + 1 * 0 = 0; omega
  | ⟨1, _⟩ => show win0_5.index t (1 : Fin 2) * 4096 + 1 * q.val = q.val; omega

/-- The block's pre-activations are the batch rows' pre-activations. -/
theorem preBlk_eq (c : Dev nD) (t : Fin cfg0.N) (r : Fin 256) (q : Fin 4096) :
    Payload.preBlk (xb m c t) (hb m c t) (wib m c t) (whb m c t) (bb m c t) r q
      = pre (m ((c : Thread nD τ).loc main_arg0)) (m ((c : Thread nD τ).loc main_arg1)) (stackedWi m c) (stackedWh m c) (stackedB m c) (row t r) q := by
  unfold Payload.preBlk pre
  refine congrArg₂ (· + ·) (congrArg₂ (· + ·) (Finset.sum_congr rfl fun k _ => ?_) (Finset.sum_congr rfl fun k _ => ?_)) ?_
  · rw [xb_apply, wib_apply]
  · rw [hb_apply, whb_apply]
  · exact bb_apply m c t q

/-! ## What each point writes back -/

theorem hz : (![0, 0] : Fin 2 → Nat) = fun _ => 0 := funext fun a => by fin_cases a <;> rfl

/-- An entry of point `t`'s block of a result array sits at batch row `row t r`. -/
theorem emb6 (t : Fin cfg0.N) (r : Fin 256) (j : Fin 1024) : ((cfg0.win 6).blk t).view.emb (ix2 r j) = ix2 (row t r) j := by
  funext a; apply Fin.ext
  obtain ⟨-, -, -, -, -, -, -, -, -, -, -, -, e0, e1, -⟩ := idx_facts t
  match a with
  | ⟨0, _⟩ => show win0_6.index t (0 : Fin 2) * 256 + 1 * r.val = 256 * t.val + r.val; omega
  | ⟨1, _⟩ => show win0_6.index t (1 : Fin 2) * 1024 + 1 * j.val = j.val; omega
theorem emb7 (t : Fin cfg0.N) (r : Fin 256) (j : Fin 1024) : ((cfg0.win 7).blk t).view.emb (ix2 r j) = ix2 (row t r) j := by
  funext a; apply Fin.ext
  obtain ⟨-, -, -, -, -, -, -, -, -, -, -, -, -, -, e0, e1⟩ := idx_facts t
  match a with
  | ⟨0, _⟩ => show win0_7.index t (0 : Fin 2) * 256 + 1 * r.val = 256 * t.val + r.val; omega
  | ⟨1, _⟩ => show win0_7.index t (1 : Fin 2) * 1024 + 1 * j.val = j.val; omega

/-- The body's new cell state at an entry of point `t`'s block is the cell step's at the batch row. -/
theorem cell_entry (c : Dev nD) (t : Fin cfg0.N) (r : Fin 256) (j : Fin 1024) :
    k0_pay2 (F := Ideal) (xb m c t) (hb m c t) (cb m c t) (wib m c t) (whb m c t) (bb m c t) (ix2 r j)
      = cellArr m c (ix2 (row t r) j) := by
  rw [Payload.pay2_apply, preBlk_eq, preBlk_eq, preBlk_eq, cb_apply]
  rfl

/-- The body's new hidden state at an entry of point `t`'s block is the cell step's at the batch row. -/
theorem hidden_entry (c : Dev nD) (t : Fin cfg0.N) (r : Fin 256) (j : Fin 1024) :
    k0_pay3 (F := Ideal) (xb m c t) (hb m c t) (cb m c t) (wib m c t) (whb m c t) (bb m c t) (ix2 r j)
      = hiddenArr m c (ix2 (row t r) j) := by
  rw [Payload.pay3_apply, cell_entry, preBlk_eq]
  rfl

/-- Point `t` writes back block `t` of the new hidden state. -/
theorem flushed6_eq (c : Dev nD) (t : Fin cfg0.N) :
    (dats m 0 c).flushed 6 t = ((cfg0.win 6).blk t).view.read (Elt Ideal) (hiddenArr m c) := by
  show (cfg0.win 6).cut (grid0.coords t) ((dats m 0 c).after 6 t) = _
  rw [after0_6]
  unfold out0_6
  rw [View.canon_unit_zero hz]
  simp only [View.ld_unit_zero (S := S256x1024) hz, View.ld_unit_zero (S := S4096x1024) hz, View.ld_unit_zero (S := S1x4096) hz]
  funext y
  obtain ⟨r, j, rfl⟩ : ∃ (r : Fin 256) (j : Fin 1024), y = ix2 r j := ⟨y 0, y 1, eq_ix2 y⟩
  show k0_pay3 (F := Ideal) (xb m c t) (hb m c t) (cb m c t) (wib m c t) (whb m c t) (bb m c t) (ix2 r j)
    = hiddenArr m c (((cfg0.win 6).blk t).view.emb (ix2 r j))
  rw [emb6, hidden_entry]

/-- Point `t` writes back block `t` of the new cell state. -/
theorem flushed7_eq (c : Dev nD) (t : Fin cfg0.N) :
    (dats m 0 c).flushed 7 t = ((cfg0.win 7).blk t).view.read (Elt Ideal) (cellArr m c) := by
  show (cfg0.win 7).cut (grid0.coords t) ((dats m 0 c).after 7 t) = _
  rw [after0_7]
  unfold out0_7
  rw [View.canon_unit_zero hz]
  simp only [View.ld_unit_zero (S := S256x1024) hz, View.ld_unit_zero (S := S4096x1024) hz, View.ld_unit_zero (S := S1x4096) hz]
  funext y
  obtain ⟨r, j, rfl⟩ : ∃ (r : Fin 256) (j : Fin 1024), y = ix2 r j := ⟨y 0, y 1, eq_ix2 y⟩
  show k0_pay2 (F := Ideal) (xb m c t) (hb m c t) (cb m c t) (wib m c t) (whb m c t) (bb m c t) (ix2 r j)
    = cellArr m c (((cfg0.win 7).blk t).view.emb (ix2 r j))
  rw [emb7, cell_entry]

/-! ## The sixteen blocks tile the rows -/

/-- Every row block is some point's. -/
theorem idx_onto6 : ∀ q0 : Fin 16, ∃ t : Fin cfg0.N, win0_6.index t = ![q0.val, 0] :=
  (by decide +kernel : ∀ q0 : Fin 16, ∃ t : Fin grid0.N, win0_6.index t = ![q0.val, 0])
theorem idx_onto7 : ∀ q0 : Fin 16, ∃ t : Fin cfg0.N, win0_7.index t = ![q0.val, 0] :=
  (by decide +kernel : ∀ q0 : Fin 16, ∃ t : Fin grid0.N, win0_7.index t = ![q0.val, 0])

/-- An index is in point `t`'s block iff each coordinate is in the block's range on its axis. -/
theorem mem_blk6 (t : Fin cfg0.N) (i : S4096x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v12_0).slice (win0_6.rect t)).set ↔ _
  rw [View.set_slice_whole, Rect.mem_set_unit]
  exact Iff.rfl
theorem mem_blk7 (t : Fin cfg0.N) (i : S4096x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v12_1).slice (win0_7.rect t)).set ↔ _
  rw [View.set_slice_whole, Rect.mem_set_unit]
  exact Iff.rfl

/-- Every entry of the array is in the block of the point that owns its row. -/
theorem cover6 (i : S4096x1024.Idx) : ∃ t : Fin cfg0.N, (cfg0.win 6).flush t = true ∧ i ∈ ((cfg0.win 6).blk t).view.set := by
  have hi0 : (i 0).val < 4096 := (i 0).isLt
  have hi1 : (i 1).val < 1024 := (i 1).isLt
  obtain ⟨t, ht⟩ := idx_onto6 ⟨(i 0).val / 256, by omega⟩
  have q0 : win0_6.index t (0 : Fin 2) = (i 0).val / 256 := congrFun ht 0
  have q1 : win0_6.index t (1 : Fin 2) = 0 := congrFun ht 1
  refine ⟨t, flush0_6 t, ?_⟩
  rw [mem_blk6]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 1024 ≤ (i 1).val ∧ (i 1).val < win0_6.index t (1 : Fin 2) * 1024 + 1024; omega
theorem cover7 (i : S4096x1024.Idx) : ∃ t : Fin cfg0.N, (cfg0.win 7).flush t = true ∧ i ∈ ((cfg0.win 7).blk t).view.set := by
  have hi0 : (i 0).val < 4096 := (i 0).isLt
  have hi1 : (i 1).val < 1024 := (i 1).isLt
  obtain ⟨t, ht⟩ := idx_onto7 ⟨(i 0).val / 256, by omega⟩
  have q0 : win0_7.index t (0 : Fin 2) = (i 0).val / 256 := congrFun ht 0
  have q1 : win0_7.index t (1 : Fin 2) = 0 := congrFun ht 1
  refine ⟨t, flush0_7 t, ?_⟩
  rw [mem_blk7]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 1024 ≤ (i 1).val ∧ (i 1).val < win0_7.index t (1 : Fin 2) * 1024 + 1024; omega

/-- The first result array after the run is the new hidden state. -/
theorem final6 (c : Dev nD) : (dats m 0 c).arrAt 6 cfg0.N = hiddenArr m c :=
  (dats m 0 c).arrAt_eq_of_cover 6 (hiddenArr m c) (fun t _ => flushed6_eq m c t) cover6
/-- The second result array after the run is the new cell state. -/
theorem final7 (c : Dev nD) : (dats m 0 c).arrAt 7 cfg0.N = cellArr m c :=
  (dats m 0 c).arrAt_eq_of_cover 7 (cellArr m c) (fun t _ => flushed7_eq m c t) cover7

/-! ## The run, read -/

/-- Every fair execution of the idealized kernel's program terminates with the new hidden state in its first result
    array, the new cell state in its second, and its arguments as given. -/
theorem run : θ_run defs (onTc (τ := τ) (main (F := Ideal))) ⟨m, fun _ => 0, ρ⟩ fun r => ∀ c : Dev nD,
      r.2.mem ((c.tc : Thread nD τ).loc main_v12_0) = hiddenArr m c
      ∧ r.2.mem ((c.tc : Thread nD τ).loc main_v12_1) = cellArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun r h c => ⟨((h c).1 6).trans (final6 m c), ((h c).1 7).trans (final7 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩)
    (run_main m ρ)

end Cert.KernelIdeal.RegionValue

end
-- ==== Proof.LibLogistic.lean ====
/-
  The logistic function spelt out in host operations, on the extended reals.

  On the host the logistic function of y is computed as one over (one plus the exponential of minus y): a negation, an
  exponential, an addition of the float one and a division into the float one. On the extended reals that expression IS
  the logistic function (0 at −∞, 1 at +∞, 1/(1+e^(−y)) at a real y), and the float word of one denotes the number one.
-/
import Idealize.ShloMosaic.PureOps.Ideal

noncomputable section

namespace Cert.LogisticSpelt

open Idealize.ShloMosaic

/-- The 32-bit float word of one denotes one. -/
theorem one_word : Ideal.ofBits .f32 0x3F800000#32 = 1 := by
  simp [Ideal.ofBits, Ideal.ieee, -EReal.coe_mul]; norm_num

/-- One over one plus the exponential of the negative, in the host's operations, is the logistic function. -/
theorem logistic_spelt (y : Ideal .f32) :
    FloatOps.hostDivf (1 : Ideal .f32) (FloatOps.addf 1 (FloatOps.hostUnary .exp (FloatOps.hostNegf y))) = Ideal.logistic y := rfl

/-- The same in a kernel's operations. -/
theorem logistic_spelt_kernel (y : Ideal .f32) :
    FloatOps.divf (1 : Ideal .f32) (FloatOps.addf 1 (FloatOps.exp (FloatOps.negf y))) = Ideal.logistic y := rfl

end Cert.LogisticSpelt

end
-- ==== Proof.RefValue.lean ====
/-
  The reference program computes the cell step of Spec.lean.

  Its two matrix products contract the activations against the TRANSPOSED stacked weights, so entry (p, q) of each is
  the sum over k of activation (p, k) times stacked weight (q, k); the stacked bias is laid over every batch row; the
  four gates are the four column blocks of width 1024; the logistic function is spelt as one over one plus the
  exponential of the negative. The stacked weights and the stacked bias are carried as they are (the concatenations are
  never opened: the kernel's program builds the very same arrays).
-/
import proofs.«127617_j77988016160946_1_alg».proof.Proof.Gen.ReferenceIdeal.Run
import proofs.«127617_j77988016160946_1_alg».proof.Proof.Gen.ReferenceIdeal.Read
import proofs.«127617_j77988016160946_1_alg».proof.Proof.Spec
import proofs.«127617_j77988016160946_1_alg».proof.Proof.LibLogistic

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx

/-! ## The composed index maps, by coordinates

Each operation that only moves elements reads its operand at an index computed from the result's index. Composed along
the program and evaluated at the index (p, q), these maps are plain pairs of coordinates. -/

/-- The first product's left factor at (p, q), term k, is the activation at (p, k). -/
theorem lidx8 (p q : Fin 4096) (k : Fin 1024) : lidx_main_v8 (ix2 p q) k = ix2 p k :=
  funext fun a => Fin.ext (by match a with | ⟨0, _⟩ => rfl | ⟨1, _⟩ => rfl)

/-- The first product's right factor at (p, q), term k, read through the transposition, is the stacked weight at (q, k). -/
theorem ridx8 (p q : Fin 4096) (k : Fin 1024) : idx_main_v7 (ridx_main_v8 (ix2 p q) k) = ix2 q k :=
  funext fun a => Fin.ext (by match a with | ⟨0, _⟩ => rfl | ⟨1, _⟩ => rfl)

/-- The second product's left factor at (p, q), term k, is the hidden state at (p, k). -/
theorem lidx10 (p q : Fin 4096) (k : Fin 1024) : lidx_main_v10 (ix2 p q) k = ix2 p k :=
  funext fun a => Fin.ext (by match a with | ⟨0, _⟩ => rfl | ⟨1, _⟩ => rfl)

/-- The second product's right factor at (p, q), term k, read through the transposition, is the stacked weight at (q, k). -/
theorem ridx10 (p q : Fin 4096) (k : Fin 1024) : idx_main_v9 (ridx_main_v10 (ix2 p q) k) = ix2 q k :=
  funext fun a => Fin.ext (by match a with | ⟨0, _⟩ => rfl | ⟨1, _⟩ => rfl)

/-- The bias laid over the rows, at (p, q), is the stacked bias at q. -/
theorem bidx (p q : Fin 4096) : idx_main_v12 (idx_main_v13 (ix2 p q)) = ix1 q :=
  funext fun a => Fin.ext (by match a with | ⟨0, _⟩ => rfl)

/-- The four column blocks: feature j of a block is the stacked column of that gate. -/
theorem sidxI (p : Fin 4096) (j : Fin 1024) : idx_main_v15 (ix2 p j) = ix2 p (Cert.Lstm.colI j) :=
  funext fun a => Fin.ext (by match a with | ⟨0, _⟩ => rfl | ⟨1, _⟩ => rfl)
theorem sidxF (p : Fin 4096) (j : Fin 1024) : idx_main_v16 (ix2 p j) = ix2 p (Cert.Lstm.colF j) :=
  funext fun a => Fin.ext (by match a with | ⟨0, _⟩ => rfl | ⟨1, _⟩ => rfl)
theorem sidxG (p : Fin 4096) (j : Fin 1024) : idx_main_v17 (ix2 p j) = ix2 p (Cert.Lstm.colG j) :=
  funext fun a => Fin.ext (by match a with | ⟨0, _⟩ => rfl | ⟨1, _⟩ => rfl)
theorem sidxO (p : Fin 4096) (j : Fin 1024) : idx_main_v18 (ix2 p j) = ix2 p (Cert.Lstm.colO j) :=
  funext fun a => Fin.ext (by match a with | ⟨0, _⟩ => rfl | ⟨1, _⟩ => rfl)

/-! ## The stacked pre-activation -/

/-- Entry (p, q) of the sum of the two products and the bias is the stacked pre-activation: each product's entry is the
    sum over k of activation (p, k) times transposed weight (k, q), that is stacked weight (q, k). -/
theorem pre_eq (x0 x1 : (⟨S4096x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal)) (x15 : (⟨S1024x1024, .f32⟩ : BufTy).Contents (Elt Ideal)) (x16 : (⟨S1024, .f32⟩ : BufTy).Contents (Elt Ideal)) (x17 : (⟨S1024x1024, .f32⟩ : BufTy).Contents (Elt Ideal)) (x18 : (⟨S1024, .f32⟩ : BufTy).Contents (Elt Ideal)) (p q : Fin 4096) :
    val_main_v14 (F := Ideal) x0 x1 x3 x4 x5 x6 x7 x8 x9 x10 x11 x12 x13 x14 x15 x16 x17 x18 (ix2 p q) = Cert.Lstm.pre x0 x1 (val_main_v0 (F := Ideal) x3 x5 x7 x9) (val_main_v1 (F := Ideal) x11 x13 x15 x17) (val_main_v6 (F := Ideal) x4 x6 x8 x10 x12 x14 x16 x18) p q := by
  rw [val_main_v14_apply, val_main_v11_apply, val_main_v8_apply, val_main_v10_apply, val_main_v13_apply,
    val_main_v12_apply]
  simp only [val_main_v7_apply, val_main_v9_apply, lidx8, ridx8, lidx10, ridx10, bidx]
  rfl

/-! ## The four gates' pre-activations are the four column blocks -/

theorem sliceI_eq (x0 x1 : (⟨S4096x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal)) (x15 : (⟨S1024x1024, .f32⟩ : BufTy).Contents (Elt Ideal)) (x16 : (⟨S1024, .f32⟩ : BufTy).Contents (Elt Ideal)) (x17 : (⟨S1024x1024, .f32⟩ : BufTy).Contents (Elt Ideal)) (x18 : (⟨S1024, .f32⟩ : BufTy).Contents (Elt Ideal)) (p : Fin 4096) (j : Fin 1024) :
    val_main_v15 (F := Ideal) x0 x1 x3 x4 x5 x6 x7 x8 x9 x10 x11 x12 x13 x14 x15 x16 x17 x18 (ix2 p j) = Cert.Lstm.pre x0 x1 (val_main_v0 (F := Ideal) x3 x5 x7 x9) (val_main_v1 (F := Ideal) x11 x13 x15 x17) (val_main_v6 (F := Ideal) x4 x6 x8 x10 x12 x14 x16 x18) p (Cert.Lstm.colI j) := by
  rw [val_main_v15_apply, sidxI, pre_eq]

theorem sliceF_eq (x0 x1 : (⟨S4096x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal)) (x15 : (⟨S1024x1024, .f32⟩ : BufTy).Contents (Elt Ideal)) (x16 : (⟨S1024, .f32⟩ : BufTy).Contents (Elt Ideal)) (x17 : (⟨S1024x1024, .f32⟩ : BufTy).Contents (Elt Ideal)) (x18 : (⟨S1024, .f32⟩ : BufTy).Contents (Elt Ideal)) (p : Fin 4096) (j : Fin 1024) :
    val_main_v16 (F := Ideal) x0 x1 x3 x4 x5 x6 x7 x8 x9 x10 x11 x12 x13 x14 x15 x16 x17 x18 (ix2 p j) = Cert.Lstm.pre x0 x1 (val_main_v0 (F := Ideal) x3 x5 x7 x9) (val_main_v1 (F := Ideal) x11 x13 x15 x17) (val_main_v6 (F := Ideal) x4 x6 x8 x10 x12 x14 x16 x18) p (Cert.Lstm.colF j) := by
  rw [val_main_v16_apply, sidxF, pre_eq]

theorem sliceG_eq (x0 x1 : (⟨S4096x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal)) (x15 : (⟨S1024x1024, .f32⟩ : BufTy).Contents (Elt Ideal)) (x16 : (⟨S1024, .f32⟩ : BufTy).Contents (Elt Ideal)) (x17 : (⟨S1024x1024, .f32⟩ : BufTy).Contents (Elt Ideal)) (x18 : (⟨S1024, .f32⟩ : BufTy).Contents (Elt Ideal)) (p : Fin 4096) (j : Fin 1024) :
    val_main_v17 (F := Ideal) x0 x1 x3 x4 x5 x6 x7 x8 x9 x10 x11 x12 x13 x14 x15 x16 x17 x18 (ix2 p j) = Cert.Lstm.pre x0 x1 (val_main_v0 (F := Ideal) x3 x5 x7 x9) (val_main_v1 (F := Ideal) x11 x13 x15 x17) (val_main_v6 (F := Ideal) x4 x6 x8 x10 x12 x14 x16 x18) p (Cert.Lstm.colG j) := by
  rw [val_main_v17_apply, sidxG, pre_eq]

theorem sliceO_eq (x0 x1 : (⟨S4096x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal)) (x15 : (⟨S1024x1024, .f32⟩ : BufTy).Contents (Elt Ideal)) (x16 : (⟨S1024, .f32⟩ : BufTy).Contents (Elt Ideal)) (x17 : (⟨S1024x1024, .f32⟩ : BufTy).Contents (Elt Ideal)) (x18 : (⟨S1024, .f32⟩ : BufTy).Contents (Elt Ideal)) (p : Fin 4096) (j : Fin 1024) :
    val_main_v18 (F := Ideal) x0 x1 x3 x4 x5 x6 x7 x8 x9 x10 x11 x12 x13 x14 x15 x16 x17 x18 (ix2 p j) = Cert.Lstm.pre x0 x1 (val_main_v0 (F := Ideal) x3 x5 x7 x9) (val_main_v1 (F := Ideal) x11 x13 x15 x17) (val_main_v6 (F := Ideal) x4 x6 x8 x10 x12 x14 x16 x18) p (Cert.Lstm.colO j) := by
  rw [val_main_v18_apply, sidxO, pre_eq]

/-! ## The three logistic gates and the candidate

One over one plus the exponential of the negative, with the float word of one for both ones, is the logistic function. -/

theorem gateI_eq (x0 x1 : (⟨S4096x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal)) (x15 : (⟨S1024x1024, .f32⟩ : BufTy).Contents (Elt Ideal)) (x16 : (⟨S1024, .f32⟩ : BufTy).Contents (Elt Ideal)) (x17 : (⟨S1024x1024, .f32⟩ : BufTy).Contents (Elt Ideal)) (x18 : (⟨S1024, .f32⟩ : BufTy).Contents (Elt Ideal)) (p : Fin 4096) (j : Fin 1024) :
    val_main_v24 (F := Ideal) x0 x1 x3 x4 x5 x6 x7 x8 x9 x10 x11 x12 x13 x14 x15 x16 x17 x18 (ix2 p j) = Ideal.logistic (Cert.Lstm.pre x0 x1 (val_main_v0 (F := Ideal) x3 x5 x7 x9) (val_main_v1 (F := Ideal) x11 x13 x15 x17) (val_main_v6 (F := Ideal) x4 x6 x8 x10 x12 x14 x16 x18) p (Cert.Lstm.colI j)) := by
  rw [val_main_v24_apply, val_main_v23_apply, val_main_cst_0_apply, val_main_v22_apply, val_main_v21_apply,
    val_main_cst_apply, val_main_v20_apply, val_main_v19_apply, sliceI_eq, Ideal.ofBits_def,
    Cert.LogisticSpelt.one_word, Cert.LogisticSpelt.logistic_spelt]

theorem gateF_eq (x0 x1 : (⟨S4096x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal)) (x15 : (⟨S1024x1024, .f32⟩ : BufTy).Contents (Elt Ideal)) (x16 : (⟨S1024, .f32⟩ : BufTy).Contents (Elt Ideal)) (x17 : (⟨S1024x1024, .f32⟩ : BufTy).Contents (Elt Ideal)) (x18 : (⟨S1024, .f32⟩ : BufTy).Contents (Elt Ideal)) (p : Fin 4096) (j : Fin 1024) :
    val_main_v30 (F := Ideal) x0 x1 x3 x4 x5 x6 x7 x8 x9 x10 x11 x12 x13 x14 x15 x16 x17 x18 (ix2 p j) = Ideal.logistic (Cert.Lstm.pre x0 x1 (val_main_v0 (F := Ideal) x3 x5 x7 x9) (val_main_v1 (F := Ideal) x11 x13 x15 x17) (val_main_v6 (F := Ideal) x4 x6 x8 x10 x12 x14 x16 x18) p (Cert.Lstm.colF j)) := by
  rw [val_main_v30_apply, val_main_v29_apply, val_main_cst_2_apply, val_main_v28_apply, val_main_v27_apply,
    val_main_cst_1_apply, val_main_v26_apply, val_main_v25_apply, sliceF_eq, Ideal.ofBits_def,
    Cert.LogisticSpelt.one_word, Cert.LogisticSpelt.logistic_spelt]

theorem gateO_eq (x0 x1 : (⟨S4096x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal)) (x15 : (⟨S1024x1024, .f32⟩ : BufTy).Contents (Elt Ideal)) (x16 : (⟨S1024, .f32⟩ : BufTy).Contents (Elt Ideal)) (x17 : (⟨S1024x1024, .f32⟩ : BufTy).Contents (Elt Ideal)) (x18 : (⟨S1024, .f32⟩ : BufTy).Contents (Elt Ideal)) (p : Fin 4096) (j : Fin 1024) :
    val_main_v37 (F := Ideal) x0 x1 x3 x4 x5 x6 x7 x8 x9 x10 x11 x12 x13 x14 x15 x16 x17 x18 (ix2 p j) = Ideal.logistic (Cert.Lstm.pre x0 x1 (val_main_v0 (F := Ideal) x3 x5 x7 x9) (val_main_v1 (F := Ideal) x11 x13 x15 x17) (val_main_v6 (F := Ideal) x4 x6 x8 x10 x12 x14 x16 x18) p (Cert.Lstm.colO j)) := by
  rw [val_main_v37_apply, val_main_v36_apply, val_main_cst_4_apply, val_main_v35_apply, val_main_v34_apply,
    val_main_cst_3_apply, val_main_v33_apply, val_main_v32_apply, sliceO_eq, Ideal.ofBits_def,
    Cert.LogisticSpelt.one_word, Cert.LogisticSpelt.logistic_spelt]

theorem cand_eq (x0 x1 : (⟨S4096x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal)) (x15 : (⟨S1024x1024, .f32⟩ : BufTy).Contents (Elt Ideal)) (x16 : (⟨S1024, .f32⟩ : BufTy).Contents (Elt Ideal)) (x17 : (⟨S1024x1024, .f32⟩ : BufTy).Contents (Elt Ideal)) (x18 : (⟨S1024, .f32⟩ : BufTy).Contents (Elt Ideal)) (p : Fin 4096) (j : Fin 1024) :
    val_main_v31 (F := Ideal) x0 x1 x3 x4 x5 x6 x7 x8 x9 x10 x11 x12 x13 x14 x15 x16 x17 x18 (ix2 p j) = Ideal.tanh (Cert.Lstm.pre x0 x1 (val_main_v0 (F := Ideal) x3 x5 x7 x9) (val_main_v1 (F := Ideal) x11 x13 x15 x17) (val_main_v6 (F := Ideal) x4 x6 x8 x10 x12 x14 x16 x18) p (Cert.Lstm.colG j)) := by
  rw [val_main_v31_apply, sliceG_eq]
  rfl

/-! ## The new cell state and the new hidden state, entry by entry -/

theorem cell_at (x0 x1 x2 : (⟨S4096x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal)) (x15 : (⟨S1024x1024, .f32⟩ : BufTy).Contents (Elt Ideal)) (x16 : (⟨S1024, .f32⟩ : BufTy).Contents (Elt Ideal)) (x17 : (⟨S1024x1024, .f32⟩ : BufTy).Contents (Elt Ideal)) (x18 : (⟨S1024, .f32⟩ : BufTy).Contents (Elt Ideal)) (p : Fin 4096) (j : Fin 1024) :
    val_main_v40 (F := Ideal) x0 x1 x2 x3 x4 x5 x6 x7 x8 x9 x10 x11 x12 x13 x14 x15 x16 x17 x18 (ix2 p j) = Cert.Lstm.cellAt x0 x1 x2 (val_main_v0 (F := Ideal) x3 x5 x7 x9) (val_main_v1 (F := Ideal) x11 x13 x15 x17) (val_main_v6 (F := Ideal) x4 x6 x8 x10 x12 x14 x16 x18) p j := by
  rw [val_main_v40_apply, val_main_v38_apply, val_main_v39_apply, gateF_eq, gateI_eq, cand_eq]
  rfl

theorem hidden_at (x0 x1 x2 : (⟨S4096x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal)) (x15 : (⟨S1024x1024, .f32⟩ : BufTy).Contents (Elt Ideal)) (x16 : (⟨S1024, .f32⟩ : BufTy).Contents (Elt Ideal)) (x17 : (⟨S1024x1024, .f32⟩ : BufTy).Contents (Elt Ideal)) (x18 : (⟨S1024, .f32⟩ : BufTy).Contents (Elt Ideal)) (p : Fin 4096) (j : Fin 1024) :
    val_main_v42 (F := Ideal) x0 x1 x2 x3 x4 x5 x6 x7 x8 x9 x10 x11 x12 x13 x14 x15 x16 x17 x18 (ix2 p j) = Cert.Lstm.hiddenAt x0 x1 x2 (val_main_v0 (F := Ideal) x3 x5 x7 x9) (val_main_v1 (F := Ideal) x11 x13 x15 x17) (val_main_v6 (F := Ideal) x4 x6 x8 x10 x12 x14 x16 x18) p j := by
  rw [val_main_v42_apply, val_main_v41_apply, gateO_eq, cell_at]
  rfl

theorem cell_eq (x0 x1 x2 : (⟨S4096x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal)) (x15 : (⟨S1024x1024, .f32⟩ : BufTy).Contents (Elt Ideal)) (x16 : (⟨S1024, .f32⟩ : BufTy).Contents (Elt Ideal)) (x17 : (⟨S1024x1024, .f32⟩ : BufTy).Contents (Elt Ideal)) (x18 : (⟨S1024, .f32⟩ : BufTy).Contents (Elt Ideal)) :
    val_main_v40 (F := Ideal) x0 x1 x2 x3 x4 x5 x6 x7 x8 x9 x10 x11 x12 x13 x14 x15 x16 x17 x18 = Cert.Lstm.cellNew x0 x1 x2 (val_main_v0 (F := Ideal) x3 x5 x7 x9) (val_main_v1 (F := Ideal) x11 x13 x15 x17) (val_main_v6 (F := Ideal) x4 x6 x8 x10 x12 x14 x16 x18) := by
  funext i
  obtain ⟨p, j, rfl⟩ : ∃ (p : Fin 4096) (j : Fin 1024), i = ix2 p j := ⟨i 0, i 1, eq_ix2 i⟩
  rw [Cert.Lstm.cellNew_apply, cell_at]

theorem hidden_eq (x0 x1 x2 : (⟨S4096x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal)) (x15 : (⟨S1024x1024, .f32⟩ : BufTy).Contents (Elt Ideal)) (x16 : (⟨S1024, .f32⟩ : BufTy).Contents (Elt Ideal)) (x17 : (⟨S1024x1024, .f32⟩ : BufTy).Contents (Elt Ideal)) (x18 : (⟨S1024, .f32⟩ : BufTy).Contents (Elt Ideal)) :
    val_main_v42 (F := Ideal) x0 x1 x2 x3 x4 x5 x6 x7 x8 x9 x10 x11 x12 x13 x14 x15 x16 x17 x18 = Cert.Lstm.hiddenNew x0 x1 x2 (val_main_v0 (F := Ideal) x3 x5 x7 x9) (val_main_v1 (F := Ideal) x11 x13 x15 x17) (val_main_v6 (F := Ideal) x4 x6 x8 x10 x12 x14 x16 x18) := by
  funext i
  obtain ⟨p, j, rfl⟩ : ∃ (p : Fin 4096) (j : Fin 1024), i = ix2 p j := ⟨i 0, i 1, eq_ix2 i⟩
  rw [Cert.Lstm.hiddenNew_apply, hidden_at]

end Cert.ReferenceIdeal.RefValue

end
-- ==== Proof.lean ====
/-
  A Pallas kernel for one step of a long short-term memory cell against its jnp reference: the five claims.

  Both programs stack the eight weight matrices into two, add the bias vectors pairwise and lay the sums end to end, form
  the 4096 pre-activations of every batch row as (x · Wiᵀ + h · Whᵀ) + b, cut them into the four gates and combine them
  with the old cell state: c' = σ(f) · c + σ(i) · tanh(g), h' = σ(o) · tanh(c'). The kernel does it in sixteen blocks
  of 256 batch rows with the weights resident, its matrix products contracting the second axis of both factors; the
  reference transposes the stacked weights and multiplies whole arrays. On the extended reals the two compute the same
  expression entry by entry (Spec.lean): the same sums in the same grouping, the logistic function on one side an
  operation and on the other spelt as 1 / (1 + e^(−y)), which is the same function. No law of arithmetic is needed, so
  the finiteness of the inputs is never used.

  The kernel's two programs run to the end and keep their arguments (KRun.lean at the word level, IRun.lean idealized):
  the frame of the one launch, from the body's triple at a grid point. The idealized kernel's result arrays are read
  block by block (IPay.lean, IValue.lean), the reference's operation by operation (RefValue.lean). The ideal pass
  rewrote nothing, so the third claim is trivial.
-/
import proofs.«127617_j77988016160946_1_alg».proof.Defs
import proofs.«127617_j77988016160946_1_alg».proof.Proof.Gen.Kernel
import proofs.«127617_j77988016160946_1_alg».proof.Proof.Gen.KernelIdeal
import proofs.«127617_j77988016160946_1_alg».proof.Proof.Gen.ReferenceIdeal
import proofs.«127617_j77988016160946_1_alg».proof.Proof.Gen.Pre_finite_inputs
import proofs.«127617_j77988016160946_1_alg».proof.Proof.Gen.ReferenceIdeal.Run
import proofs.«127617_j77988016160946_1_alg».proof.Proof.Gen.ReferenceIdeal.Read
import proofs.«127617_j77988016160946_1_alg».proof.Proof.KRun
import proofs.«127617_j77988016160946_1_alg».proof.Proof.IValue
import proofs.«127617_j77988016160946_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end and keeps its arguments. -/
theorem frame_k : Cert.frame_Kernel := fun m ρ _ => Cert.Kernel.Region.frame m ρ

/-- The idealized kernel runs to the end and keeps its arguments. -/
theorem frame_ki : Cert.frame_KernelIdeal := fun m ρ _ => Cert.KernelIdeal.Region.frame m ρ

/-- The reference runs to the end and keeps its arguments: its run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- From memories that agree on the nineteen arguments both idealized programs end with the new hidden state in their
    first two results and the new cell state in the third: the cell step of the kernel's arguments. -/
theorem algebraic : Cert.algebraic_KernelIdeal_ReferenceIdeal := by
  intro m ρ m' ρ' _ hagree
  refine ⟨fun c => Cert.KernelIdeal.RegionValue.hiddenArr m c, fun c => Cert.KernelIdeal.RegionValue.hiddenArr m c,
    fun c => Cert.KernelIdeal.RegionValue.cellArr m c, ?_, ?_⟩
  · exact (θ_run Cert.KernelIdeal.defs _ _).mono (fun r h c => ⟨(h c).1, (h c).1, (h c).2.1, (h c).2.2⟩)
      (Cert.KernelIdeal.RegionValue.run m ρ)
  · refine (θ_run Cert.ReferenceIdeal.defs _ _).mono (fun r h c => ?_) (Cert.ReferenceIdeal.Value.run (F := Ideal) m' ρ')
    obtain ⟨h0, h1, h2, hk⟩ := h c
    obtain ⟨a0, a1, a2, a3, a4, a5, a6, a7, a8, a9, a10, a11, a12, a13, a14, a15, a16, a17, a18⟩ := hagree c
    have e42 : Cert.ReferenceIdeal.Value.res_main_v42 m' c = Cert.KernelIdeal.RegionValue.hiddenArr m c := by
      rw [Cert.ReferenceIdeal.Read.val_main_v42_eq, Cert.ReferenceIdeal.RefValue.hidden_eq, a0, a1, a2, a3, a4, a5, a6, a7, a8, a9, a10, a11, a12, a13, a14, a15, a16, a17, a18]
      rfl
    have e40 : Cert.ReferenceIdeal.Value.res_main_v40 m' c = Cert.KernelIdeal.RegionValue.cellArr m c := by
      rw [Cert.ReferenceIdeal.Read.val_main_v40_eq, Cert.ReferenceIdeal.RefValue.cell_eq, a0, a1, a2, a3, a4, a5, a6, a7, a8, a9, a10, a11, a12, a13, a14, a15, a16, a17, a18]
      rfl
    exact ⟨h0.trans e42, h1.trans e42, h2.trans e40, hk⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
